-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v64)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v64) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x128 : Shape := ⟨2, ![128, 128]⟩
abbrev S2x1600000 : Shape := ⟨2, ![2, 1600000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_

variable [Facts]

def fn {F : FTy → Type} [FloatOps F] (main_arg0 : FVec F S100000x128 .f32) (main_arg1 : FVec F S128x128 .f32) (main_arg2 : FVec F S128x128 .f32) (main_arg3 : IVec S2x1600000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  main_v13
-- ==== Kernel.lean ====
abbrev S100000x128 : Shape := ⟨2, ![100000, 128]⟩
abbrev S128x128 : Shape := ⟨2, ![128, 128]⟩
abbrev S2x1600000 : Shape := ⟨2, ![2, 1600000]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S5000x128 : Shape := ⟨2, ![5000, 128]⟩

abbrev nBuf : Space → Nat
  | .hbm => 87
  | .vmem => 10
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128x128, .f32⟩
  | .hbm, ⟨3, _⟩ => ⟨S2x1600000, .i32⟩
  | .hbm, ⟨4, _⟩ => ⟨S100000, .i32⟩
  | .hbm, ⟨5, _⟩ => ⟨S1x1600000, .i32⟩
  | .hbm, ⟨6, _⟩ => ⟨S1600000, .i32⟩
  | .hbm, ⟨7, _⟩ => ⟨S1700000, .i32⟩
  | .hbm, ⟨8, _⟩ => ⟨S1x1600000, .i32⟩
  | .hbm, ⟨9, _⟩ => ⟨S1600000, .i32⟩
  | .hbm, ⟨10, _⟩ => ⟨S1700000, .i32⟩
  | .hbm, ⟨11, _⟩ => ⟨S_, .f32⟩
  | .hbm, ⟨12, _⟩ => ⟨S1700000, .f32⟩
  | .hbm, ⟨13, _⟩ => ⟨S_, .f32⟩
  | .hbm, ⟨14, _⟩ => ⟨S100000, .f32⟩
  | .hbm, ⟨15, _⟩ => ⟨S1700000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .f32⟩
  | .hbm, ⟨30, _⟩ => ⟨S100000, .f32⟩
  | .hbm, ⟨31, _⟩ => ⟨S100000, .f32⟩
  | .hbm, ⟨32, _⟩ => ⟨S_, .i32⟩
  | .hbm, ⟨33, _⟩ => ⟨S1700000, .i32⟩
  | .hbm, ⟨34, _⟩ => ⟨S1700000, .i1⟩
  | .hbm, ⟨35, _⟩ => ⟨S_, .i32⟩
  | .hbm, ⟨36, _⟩ => ⟨S1700000, .i32⟩
  | .hbm, ⟨37, _⟩ => ⟨S1700000, .i32⟩
  | .hbm, ⟨38, _⟩ => ⟨S1700000, .i32⟩
  | .hbm, ⟨39, _⟩ => ⟨S1700000x1, .i32⟩
  | .hbm, ⟨40, _⟩ => ⟨S1700000, .f32⟩
  | .hbm, ⟨41, _⟩ => ⟨S_, .i32⟩
  | .hbm, ⟨42, _⟩ => ⟨S1700000, .i32⟩
  | .hbm, ⟨43, _⟩ => ⟨S1700000, .i1⟩
  | .hbm, ⟨44, _⟩ => ⟨S_, .i32⟩
  | .hbm, ⟨45, _⟩ => ⟨S1700000, .i32⟩
  | .hbm, ⟨46, _⟩ => ⟨S1700000, .i32⟩
  | .hbm, ⟨47, _⟩ => ⟨S1700000, .i32⟩
  | .hbm, ⟨48, _⟩ => ⟨S1700000x1, .i32⟩
  | .hbm, ⟨49, _⟩ => ⟨S1700000, .f32⟩
  | .hbm, ⟨50, _⟩ => ⟨S1700000, .f32⟩
  | .hbm, ⟨51, _⟩ => ⟨S1700000x1, .f32⟩
  | .hbm, ⟨52, _⟩ => ⟨S_, .i32⟩
  | .hbm, ⟨53, _⟩ => ⟨S1700000, .i32⟩
  | .hbm, ⟨54, _⟩ => ⟨S1700000, .i1⟩
  | .hbm, ⟨55, _⟩ => ⟨S_, .i32⟩
  | .hbm, ⟨56, _⟩ => ⟨S1700000, .i32⟩
  | .hbm, ⟨57, _⟩ => ⟨S1700000, .i32⟩
  | .hbm, ⟨58, _⟩ => ⟨S1700000, .i32⟩
  | .hbm, ⟨59, _⟩ => ⟨S1700000x1, .i32⟩
  | .hbm, ⟨60, _⟩ => ⟨S1700000x128, .f32⟩
  | .hbm, ⟨61, _⟩ => ⟨S1700000x128, .f32⟩
  | .hbm, ⟨62, _⟩ => ⟨S1700000x128, .f32⟩
  | .hbm, ⟨63, _⟩ => ⟨S_, .f32⟩
  | .hbm, ⟨64, _⟩ => ⟨S100000x128, .f32⟩
  | .hbm, ⟨65, _⟩ => ⟨S1700000x1, .i32⟩
  | .hbm, ⟨66, _⟩ => ⟨S100000x128, .f32⟩
  | .hbm, ⟨67, _⟩ => ⟨S128x128, .f32⟩
  | .hbm, ⟨68, _⟩ => ⟨S100000x128, .f32⟩
  | .hbm, ⟨69, _⟩ => ⟨S1700000x1, .f32⟩
  | .hbm, ⟨70, _⟩ => ⟨S_, .i32⟩
  | .hbm, ⟨71, _⟩ => ⟨S1700000, .i32⟩
  | .hbm, ⟨72, _⟩ => ⟨S1700000, .i1⟩
  | .hbm, ⟨73, _⟩ => ⟨S_, .i32⟩
  | .hbm, ⟨74, _⟩ => ⟨S1700000, .i32⟩
  | .hbm, ⟨75, _⟩ => ⟨S1700000, .i32⟩
  | .hbm, ⟨76, _⟩ => ⟨S1700000, .i32⟩
  | .hbm, ⟨77, _⟩ => ⟨S1700000x1, .i32⟩
  | .hbm, ⟨78, _⟩ => ⟨S1700000x128, .f32⟩
  | .hbm, ⟨79, _⟩ => ⟨S1700000x128, .f32⟩
  | .hbm, ⟨80, _⟩ => ⟨S1700000x128, .f32⟩
  | .hbm, ⟨81, _⟩ => ⟨S_, .f32⟩
  | .hbm, ⟨82, _⟩ => ⟨S100000x128, .f32⟩
  | .hbm, ⟨83, _⟩ => ⟨S1700000x1, .i32⟩
  | .hbm, ⟨84, _⟩ => ⟨S100000x128, .f32⟩
  | .hbm, ⟨85, _⟩ => ⟨S128x128, .f32⟩
  | .hbm, ⟨86, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S128x128, .f32⟩
  | .local _ .vmem, ⟨8, _⟩ => ⟨S5000x128, .f32⟩
  | .local _ .vmem, ⟨9, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_call0_v0 : Ref sig .tc := ⟨.hbm, 26, rfl⟩
abbrev main_call0_v1 : Ref sig .tc := ⟨.hbm, 27, rfl⟩
abbrev main_v17 : Ref sig .tc := ⟨.hbm, 28, rfl⟩
abbrev main_cst_4 : Ref sig .tc := ⟨.hbm, 29, rfl⟩
abbrev main_v18 : Ref sig .tc := ⟨.hbm, 30, rfl⟩
abbrev main_v19 : Ref sig .tc := ⟨.hbm, 31, rfl⟩
abbrev main_c : Ref sig .tc := ⟨.hbm, 32, rfl⟩
abbrev main_v20 : Ref sig .tc := ⟨.hbm, 33, rfl⟩
abbrev main_v21 : Ref sig .tc := ⟨.hbm, 34, rfl⟩
abbrev main_c_5 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_c_6 : Ref sig .tc := ⟨.hbm, 41, rfl⟩
abbrev main_v27 : Ref sig .tc := ⟨.hbm, 42, rfl⟩
abbrev main_v28 : Ref sig .tc := ⟨.hbm, 43, rfl⟩
abbrev main_c_7 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_c_8 : Ref sig .tc := ⟨.hbm, 52, rfl⟩
abbrev main_v36 : Ref sig .tc := ⟨.hbm, 53, rfl⟩
abbrev main_v37 : Ref sig .tc := ⟨.hbm, 54, rfl⟩
abbrev main_c_9 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_cst_10 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_c_11 : Ref sig .tc := ⟨.hbm, 70, rfl⟩
abbrev main_v51 : Ref sig .tc := ⟨.hbm, 71, rfl⟩
abbrev main_v52 : Ref sig .tc := ⟨.hbm, 72, rfl⟩
abbrev main_c_12 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_cst_13 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  transposes_S128x128_S128x128_1_0 : S128x128.Transposes [1, 0] S128x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v47) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v48) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v49) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v62) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v63) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v64) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x128 : Shape := ⟨2, ![100000, 128]⟩
abbrev S128x128 : Shape := ⟨2, ![128, 128]⟩
abbrev S2x1600000 : Shape := ⟨2, ![2, 1600000]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩

abbrev nBuf : Space → Nat
  | .hbm => 93
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128x128, .f32⟩
  | .hbm, ⟨3, _⟩ => ⟨S2x1600000, .i32⟩
  | .hbm, ⟨4, _⟩ => ⟨S100000, .i32⟩
  | .hbm, ⟨5, _⟩ => ⟨S1x1600000, .i32⟩
  | .hbm, ⟨6, _⟩ => ⟨S1600000, .i32⟩
  | .hbm, ⟨7, _⟩ => ⟨S1700000, .i32⟩
  | .hbm, ⟨8, _⟩ => ⟨S1x1600000, .i32⟩
  | .hbm, ⟨9, _⟩ => ⟨S1600000, .i32⟩
  | .hbm, ⟨10, _⟩ => ⟨S1700000, .i32⟩
  | .hbm, ⟨11, _⟩ => ⟨S_, .f32⟩
  | .hbm, ⟨12, _⟩ => ⟨S1700000, .f32⟩
  | .hbm, ⟨13, _⟩ => ⟨S_, .f32⟩
  | .hbm, ⟨14, _⟩ => ⟨S100000, .f32⟩
  | .hbm, ⟨15, _⟩ => ⟨S1700000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .f32⟩
  | .hbm, ⟨30, _⟩ => ⟨S100000, .f32⟩
  | .hbm, ⟨31, _⟩ => ⟨S100000, .f32⟩
  | .hbm, ⟨32, _⟩ => ⟨S_, .i32⟩
  | .hbm, ⟨33, _⟩ => ⟨S1700000, .i32⟩
  | .hbm, ⟨34, _⟩ => ⟨S1700000, .i1⟩
  | .hbm, ⟨35, _⟩ => ⟨S_, .i32⟩
  | .hbm, ⟨36, _⟩ => ⟨S1700000, .i32⟩
  | .hbm, ⟨37, _⟩ => ⟨S1700000, .i32⟩
  | .hbm, ⟨38, _⟩ => ⟨S1700000, .i32⟩
  | .hbm, ⟨39, _⟩ => ⟨S1700000x1, .i32⟩
  | .hbm, ⟨40, _⟩ => ⟨S1700000, .f32⟩
  | .hbm, ⟨41, _⟩ => ⟨S_, .i32⟩
  | .hbm, ⟨42, _⟩ => ⟨S1700000, .i32⟩
  | .hbm, ⟨43, _⟩ => ⟨S1700000, .i1⟩
  | .hbm, ⟨44, _⟩ => ⟨S_, .i32⟩
  | .hbm, ⟨45, _⟩ => ⟨S1700000, .i32⟩
  | .hbm, ⟨46, _⟩ => ⟨S1700000, .i32⟩
  | .hbm, ⟨47, _⟩ => ⟨S1700000, .i32⟩
  | .hbm, ⟨48, _⟩ => ⟨S1700000x1, .i32⟩
  | .hbm, ⟨49, _⟩ => ⟨S1700000, .f32⟩
  | .hbm, ⟨50, _⟩ => ⟨S1700000, .f32⟩
  | .hbm, ⟨51, _⟩ => ⟨S1700000x1, .f32⟩
  | .hbm, ⟨52, _⟩ => ⟨S_, .i32⟩
  | .hbm, ⟨53, _⟩ => ⟨S1700000, .i32⟩
  | .hbm, ⟨54, _⟩ => ⟨S1700000, .i1⟩
  | .hbm, ⟨55, _⟩ => ⟨S_, .i32⟩
  | .hbm, ⟨56, _⟩ => ⟨S1700000, .i32⟩
  | .hbm, ⟨57, _⟩ => ⟨S1700000, .i32⟩
  | .hbm, ⟨58, _⟩ => ⟨S1700000, .i32⟩
  | .hbm, ⟨59, _⟩ => ⟨S1700000x1, .i32⟩
  | .hbm, ⟨60, _⟩ => ⟨S1700000x128, .f32⟩
  | .hbm, ⟨61, _⟩ => ⟨S1700000x128, .f32⟩
  | .hbm, ⟨62, _⟩ => ⟨S1700000x128, .f32⟩
  | .hbm, ⟨63, _⟩ => ⟨S_, .f32⟩
  | .hbm, ⟨64, _⟩ => ⟨S100000x128, .f32⟩
  | .hbm, ⟨65, _⟩ => ⟨S1700000x1, .i32⟩
  | .hbm, ⟨66, _⟩ => ⟨S100000x128, .f32⟩
  | .hbm, ⟨67, _⟩ => ⟨S128x128, .f32⟩
  | .hbm, ⟨68, _⟩ => ⟨S100000x128, .f32⟩
  | .hbm, ⟨69, _⟩ => ⟨S_, .f32⟩
  | .hbm, ⟨70, _⟩ => ⟨S100000x128, .f32⟩
  | .hbm, ⟨71, _⟩ => ⟨S100000x128, .f32⟩
  | .hbm, ⟨72, _⟩ => ⟨S1700000x1, .f32⟩
  | .hbm, ⟨73, _⟩ => ⟨S_, .i32⟩
  | .hbm, ⟨74, _⟩ => ⟨S1700000, .i32⟩
  | .hbm, ⟨75, _⟩ => ⟨S1700000, .i1⟩
  | .hbm, ⟨76, _⟩ => ⟨S_, .i32⟩
  | .hbm, ⟨77, _⟩ => ⟨S1700000, .i32⟩
  | .hbm, ⟨78, _⟩ => ⟨S1700000, .i32⟩
  | .hbm, ⟨79, _⟩ => ⟨S1700000, .i32⟩
  | .hbm, ⟨80, _⟩ => ⟨S1700000x1, .i32⟩
  | .hbm, ⟨81, _⟩ => ⟨S1700000x128, .f32⟩
  | .hbm, ⟨82, _⟩ => ⟨S1700000x128, .f32⟩
  | .hbm, ⟨83, _⟩ => ⟨S1700000x128, .f32⟩
  | .hbm, ⟨84, _⟩ => ⟨S_, .f32⟩
  | .hbm, ⟨85, _⟩ => ⟨S100000x128, .f32⟩
  | .hbm, ⟨86, _⟩ => ⟨S1700000x1, .i32⟩
  | .hbm, ⟨87, _⟩ => ⟨S100000x128, .f32⟩
  | .hbm, ⟨88, _⟩ => ⟨S128x128, .f32⟩
  | .hbm, ⟨89, _⟩ => ⟨S100000x128, .f32⟩
  | .hbm, ⟨90, _⟩ => ⟨S_, .f32⟩
  | .hbm, ⟨91, _⟩ => ⟨S100000x128, .f32⟩
  | .hbm, ⟨92, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_call0_v0 : Ref sig .tc := ⟨.hbm, 26, rfl⟩
abbrev main_call0_v1 : Ref sig .tc := ⟨.hbm, 27, rfl⟩
abbrev main_v17 : Ref sig .tc := ⟨.hbm, 28, rfl⟩
abbrev main_cst_4 : Ref sig .tc := ⟨.hbm, 29, rfl⟩
abbrev main_v18 : Ref sig .tc := ⟨.hbm, 30, rfl⟩
abbrev main_v19 : Ref sig .tc := ⟨.hbm, 31, rfl⟩
abbrev main_c : Ref sig .tc := ⟨.hbm, 32, rfl⟩
abbrev main_v20 : Ref sig .tc := ⟨.hbm, 33, rfl⟩
abbrev main_v21 : Ref sig .tc := ⟨.hbm, 34, rfl⟩
abbrev main_c_5 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_c_6 : Ref sig .tc := ⟨.hbm, 41, rfl⟩
abbrev main_v27 : Ref sig .tc := ⟨.hbm, 42, rfl⟩
abbrev main_v28 : Ref sig .tc := ⟨.hbm, 43, rfl⟩
abbrev main_c_7 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_c_8 : Ref sig .tc := ⟨.hbm, 52, rfl⟩
abbrev main_v36 : Ref sig .tc := ⟨.hbm, 53, rfl⟩
abbrev main_v37 : Ref sig .tc := ⟨.hbm, 54, rfl⟩
abbrev main_c_9 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_cst_10 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_call1_cst : Ref sig .tc := ⟨.hbm, 69, rfl⟩
abbrev main_call1_v0 : Ref sig .tc := ⟨.hbm, 70, rfl⟩
abbrev main_v50 : Ref sig .tc := ⟨.hbm, 71, rfl⟩
abbrev main_v51 : Ref sig .tc := ⟨.hbm, 72, rfl⟩
abbrev main_c_11 : Ref sig .tc := ⟨.hbm, 73, rfl⟩
abbrev main_v52 : Ref sig .tc := ⟨.hbm, 74, rfl⟩
abbrev main_v53 : Ref sig .tc := ⟨.hbm, 75, rfl⟩
abbrev main_c_12 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_cst_13 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_call2_cst : Ref sig .tc := ⟨.hbm, 90, rfl⟩
abbrev main_call2_v0 : Ref sig .tc := ⟨.hbm, 91, rfl⟩
abbrev main_v66 : Ref sig .tc := ⟨.hbm, 92, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  transposes_S128x128_S128x128_1_0 : S128x128.Transposes [1, 0] S128x128
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x128_S100000x128_1_0_0_1_n_n_wf : DotDims.WF S100000x128 S128x128 S100000x128 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.RefSide.lean ====
/-
  The reference program read back: its run and its stages one operation at a time, as the generated modules state them.
-/
import proofs.«153270_j54949811585248_1_alg».proof.Proof.Gen.ReferenceIdeal.Run
import proofs.«153270_j54949811585248_1_alg».proof.Proof.Gen.ReferenceIdeal.Read
-- ==== Proof.DenseLayer.lean ====
/-
  One dense layer with a rectifier, as a function of a feature matrix and a weight matrix, index by index.

  For features `A` (100000 rows of 128) and weights `Wt` (128 by 128, already transposed), the layer's entry at
  row `r`, column `q` is `max (∑ k, A[r, k] · Wt[k, q]) 0` on the extended reals. Both programs compute
  exactly this: one as a tiled matrix product followed by a maximum with zero on each tile of 5000 rows, the other as one
  whole contraction followed by the same maximum. The sum ranges over the 128 contracted positions in either case, so no
  finiteness of the entries is needed to join the two.
-/
import Idealize.ShloMosaic.PureOps.Ideal.Laws
import Idealize.ShloMosaic.Lib.ValueIdx

noncomputable section

namespace Cert.Dense

open Idealize.ShloMosaic

/-- The feature matrix's shape: 100000 nodes, 128 features each. -/
abbrev SN : Shape := ⟨2, ![100000, 128]⟩
/-- The weight matrix's shape. -/
abbrev SW : Shape := ⟨2, ![128, 128]⟩

/-- The feature entry a contraction step reads: row of `i`, column `k`. -/
abbrev rowAt (i : SN.Idx) (k : Fin 128) : SN.Idx := fun a => match a with
  | ⟨0, _⟩ => ⟨(i 0).val, (i 0).isLt⟩
  | ⟨1, _⟩ => ⟨k.val, k.isLt⟩

/-- The weight entry a contraction step reads: row `k`, column of `i`. -/
abbrev colAt (i : SN.Idx) (k : Fin 128) : SW.Idx := fun a => match a with
  | ⟨0, _⟩ => ⟨k.val, k.isLt⟩
  | ⟨1, _⟩ => ⟨(i 1).val, (i 1).isLt⟩

/-- The layer: each entry is the row-by-column sum over the 128 contracted positions, cut off below at zero. -/
def denseRelu (A : FVec Ideal SN .f32) (Wt : FVec Ideal SW .f32) : FVec Ideal SN .f32 :=
  fun i => max (∑ k : Fin 128, A (rowAt i k) * Wt (colAt i k)) 0

theorem denseRelu_apply (A : FVec Ideal SN .f32) (Wt : FVec Ideal SW .f32) (i : SN.Idx) :
    denseRelu A Wt i = max (∑ k : Fin 128, A (rowAt i k) * Wt (colAt i k)) 0 := rfl

end Cert.Dense

end
-- ==== Proof.RefDense.lean ====
/-
  The reference computes two dense layers over aggregated neighbour features.

  Read one operation at a time, the reference's result is: aggregate the input features over the weighted edges, apply the
  first dense layer, aggregate that layer's output over the same weighted edges, apply the second dense layer. The
  aggregation (a gather of rows by destination node, a scaling by the edge weight, a scatter-add by source node) is the same
  stretch of operations both times; it is named once here, as a function of the edge list and of the feature matrix it
  aggregates, and never opened. Each dense layer is the host contraction over the 128 features followed by a maximum with
  zero, which index by index is the layer function `Cert.Dense.denseRelu`.
-/
import proofs.«153270_j54949811585248_1_alg».proof.Proof.RefSide
import proofs.«153270_j54949811585248_1_alg».proof.Proof.DenseLayer

noncomputable section

namespace Cert.ReferenceIdeal.RefValue

open Cert.ReferenceIdeal Cert.ReferenceIdeal.Gen Cert.ReferenceIdeal.Read Idealize.ShloMosaic Idealize.ShloMosaic.TcCoe Idealize.SL.Sem
  Idealize.ShloMosaic.StableHlo Cert.Dense

/-! ## The host contraction and the rectifier, index by index -/

/-- The host contraction of a feature matrix with a weight matrix, at row `r` and column `q`, is the sum over the 128
    contracted positions of `A[r, k] · Wt[k, q]`. -/
theorem dot_apply (A : FVec Ideal S100000x128 .f32) (Wt : FVec Ideal S128x128 .f32) (i : S100000x128.Idx) :
    Host.dotGeneral dot_S100000x128_S128x128_S100000x128_1_0_0_1_n_n none A Wt i = ∑ k : Fin 128, A (rowAt i k) * Wt (colAt i k) := by
  simp only [Host.dotGeneral]
  rw [Ideal.dotGeneral_apply, ← Equiv.sum_comp (ValueIdx.contrEquiv1 dot_S100000x128_S128x128_S100000x128_1_0_0_1_n_n 128 rfl rfl).symm]
  refine Finset.sum_congr rfl fun k _ => ?_
  have hk := ValueIdx.contrEquiv1_symm_val dot_S100000x128_S128x128_S100000x128_1_0_0_1_n_n 128 rfl rfl k
  have el : dot_S100000x128_S128x128_S100000x128_1_0_0_1_n_n.lhsIdx i ((ValueIdx.contrEquiv1 dot_S100000x128_S128x128_S100000x128_1_0_0_1_n_n 128 rfl rfl).symm k) = rowAt i k := funext fun a => Fin.ext (by
    match a with
    | ⟨0, _⟩ => exact lhs_main_v49_0 _ _
    | ⟨1, _⟩ => exact (lhs_main_v49_1 _ _).trans hk)
  have er : dot_S100000x128_S128x128_S100000x128_1_0_0_1_n_n.rhsIdx i ((ValueIdx.contrEquiv1 dot_S100000x128_S128x128_S100000x128_1_0_0_1_n_n 128 rfl rfl).symm k) = colAt i k := funext fun a => Fin.ext (by
    match a with
    | ⟨0, _⟩ => exact (rhs_main_v49_0 _ _).trans hk
    | ⟨1, _⟩ => exact rhs_main_v49_1 _ _)
  rw [el, er]

/-- The contraction followed by a maximum with an all-zero matrix is the dense layer. -/
theorem relu_dot (A : FVec Ideal S100000x128 .f32) (Wt : FVec Ideal S128x128 .f32) (Z : FVec Ideal S100000x128 .f32)
    (hZ : ∀ i, Z i = 0) :
    maximumf (Host.dotGeneral dot_S100000x128_S128x128_S100000x128_1_0_0_1_n_n none A Wt) Z = denseRelu A Wt := by
  funext i
  show FloatOps.maximumf (Host.dotGeneral dot_S100000x128_S128x128_S100000x128_1_0_0_1_n_n none A Wt i) (Z i) = _
  rw [dot_apply, hZ, Ideal.maximumf_def, denseRelu_apply]

/-- The first rectifier's zero matrix is zero everywhere. -/
theorem zeros1 (i : S100000x128.Idx) : val_main_call1_v0 (F := Ideal) i = 0 := by
  rw [val_main_call1_v0_apply, val_main_call1_cst_apply]; exact Ideal.ofBits_zero_f32

/-- The second rectifier's zero matrix is zero everywhere. -/
theorem zeros2 (i : S100000x128.Idx) : val_main_call2_v0 (F := Ideal) i = 0 := by
  rw [val_main_call2_v0_apply, val_main_call2_cst_apply]; exact Ideal.ofBits_zero_f32

/-! ## The aggregation over the weighted edges, as one function -/

/-- Neighbour aggregation: for the edge list `x3` (with the self loops appended) and a feature matrix `H`, gather the row of
    each edge's destination, scale it by the edge's weight, and add it into the row of the edge's source, starting from zero.
    The edge weights, sources and destinations are the reference's own stages of `x3`. -/
def edgeSum (x3 : (⟨S2x1600000, .i32⟩ : BufTy).Contents (Elt Ideal)) (H : FVec Ideal S100000x128 .f32) :
    FVec Ideal S100000x128 .f32 :=
  Host.scatterAdd scatter_S100000x128_S1700000x1_S1700000x128_1_0_0_1 (val_main_v45 (F := Ideal)) (val_main_v46 (F := Ideal) x3)
    (mulf (val_main_v43 (F := Ideal) x3)
      (Host.gather gather_S100000x128_S1700000x1_S1700000x128_1_0_n_n_0_1_1128 H (val_main_v41 (F := Ideal) x3)))

/-- The first aggregation is `edgeSum` of the input features. -/
theorem agg1_eq (x0 : FVec Ideal S100000x128 .f32) (x3 : (⟨S2x1600000, .i32⟩ : BufTy).Contents (Elt Ideal)) :
    val_main_v47 (F := Ideal) x0 x3 = edgeSum x3 x0 := by
  unfold val_main_v47 val_main_v44 val_main_v42 edgeSum; rfl

/-- The second aggregation's zero start, source indices, broadcast weights and destination indices are the first's. -/
theorem start2 : val_main_v61 (F := Ideal) = val_main_v45 (F := Ideal) := rfl
theorem src2 (x3 : (⟨S2x1600000, .i32⟩ : BufTy).Contents (Elt Ideal)) : val_main_v62 (F := Ideal) x3 = val_main_v46 (F := Ideal) x3 := rfl
theorem wgt2 (x3 : (⟨S2x1600000, .i32⟩ : BufTy).Contents (Elt Ideal)) : val_main_v59 (F := Ideal) x3 = val_main_v43 (F := Ideal) x3 := rfl
theorem dst2 (x3 : (⟨S2x1600000, .i32⟩ : BufTy).Contents (Elt Ideal)) : val_main_v57 (F := Ideal) x3 = val_main_v41 (F := Ideal) x3 := rfl

/-- The second aggregation is `edgeSum` of the first layer's output. -/
theorem agg2_eq (x0 : FVec Ideal S100000x128 .f32) (x1 : FVec Ideal S128x128 .f32) (x3 : (⟨S2x1600000, .i32⟩ : BufTy).Contents (Elt Ideal)) :
    val_main_v63 (F := Ideal) x0 x1 x3 = edgeSum x3 (val_main_v50 (F := Ideal) x0 x1 x3) := by
  unfold val_main_v63 val_main_v60 val_main_v58 edgeSum
  rw [start2, src2, wgt2, dst2]

/-! ## The reference's result -/

/-- The first layer's output. -/
theorem layer1_eq (x0 : FVec Ideal S100000x128 .f32) (x1 : FVec Ideal S128x128 .f32) (x3 : (⟨S2x1600000, .i32⟩ : BufTy).Contents (Elt Ideal)) :
    val_main_v50 (F := Ideal) x0 x1 x3 = denseRelu (edgeSum x3 x0) (val_main_v48 (F := Ideal) x1) := by
  unfold val_main_v50 val_main_v49
  rw [agg1_eq]
  exact relu_dot _ _ _ zeros1

/-- The reference's result: two dense layers, each over the aggregation of what came before. -/
theorem result_eq (x0 : FVec Ideal S100000x128 .f32) (x1 x2 : FVec Ideal S128x128 .f32) (x3 : (⟨S2x1600000, .i32⟩ : BufTy).Contents (Elt Ideal)) :
    val_main_v66 (F := Ideal) x0 x1 x2 x3
      = denseRelu (edgeSum x3 (denseRelu (edgeSum x3 x0) (val_main_v48 (F := Ideal) x1))) (val_main_v64 (F := Ideal) x2) := by
  unfold val_main_v66 val_main_v65
  rw [agg2_eq, layer1_eq]
  exact relu_dot _ _ _ zeros2

end Cert.ReferenceIdeal.RefValue

end
-- ==== Proof.KernelDense.lean ====
/-
  Each kernel region computes one dense layer of its input arrays.

  A region walks the feature matrix in 20 tiles of 5000 rows. On a tile the body multiplies the tile (5000 by 128) by the
  whole weight matrix (128 by 128), starting from zero, and takes the maximum with zero; the narrowing of both operands to
  a shorter float format before the product changes nothing over the extended reals. So the entry the body writes at local
  row `p`, column `q` of tile `t` is `max (∑ k, X[5000·t + p, k] · Wt[k, q]) 0`, which is the layer function at the
  array's row `5000·t + p`. The tiles are disjoint and cover every row (row `r` lies in tile `r / 5000`), so after the
  region the output array is the layer function of the two input arrays as the region found them.
-/
import proofs.«153270_j54949811585248_1_alg».proof.Proof.Gen.KernelIdeal.Frame
import proofs.«153270_j54949811585248_1_alg».proof.Proof.DenseLayer
import Idealize.ShloMosaic.Lib.Pipeline.Value
import Idealize.ShloMosaic.Lib.ValueIdx
import Idealize.ShloMosaic.PureOps.Ideal.Laws

set_option maxRecDepth 16384

noncomputable section

namespace Cert.KernelIdeal.DenseValue

open Cert.KernelIdeal Cert.KernelIdeal.Gen Idealize.ShloMosaic Idealize.ShloMosaic.TcCoe Idealize.SL.Sem Cert.Dense
open Idealize.ShloMosaic.Pipeline (Dat Cfg Window)

/-! ## The tile product at an index -/

/-- Within a tile: local row of `j`, column `k`. -/
abbrev trow (j : S5000x128.Idx) (k : Fin 128) : S5000x128.Idx := fun a => match a with
  | ⟨0, _⟩ => ⟨(j 0).val, (j 0).isLt⟩
  | ⟨1, _⟩ => ⟨k.val, k.isLt⟩

/-- In the weight matrix: row `k`, column of `j`. -/
abbrev tcol (j : S5000x128.Idx) (k : Fin 128) : S128x128.Idx := fun a => match a with
  | ⟨0, _⟩ => ⟨k.val, k.isLt⟩
  | ⟨1, _⟩ => ⟨(j 1).val, (j 1).isLt⟩

theorem lhs_tile_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_tile_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs_tile_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs_tile_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The tile's matrix product into a zero accumulator, at local row `p` and column `q`, is the sum over the 128
    contracted positions of `X[p, k] · Wt[k, q]`. -/
theorem matmul_tile {φ₁ φ₂ : FTy} (x0 : FVec Ideal S5000x128 φ₁) (x1 : FVec Ideal S128x128 φ₂) (j : S5000x128.Idx) :
    matmul dot_S5000x128_S128x128_S5000x128_1_0_0_1_n_n none x0 x1 (constant S5000x128 .f32 0x00000000#32) j = ∑ k : Fin 128, x0 (trow j k) * x1 (tcol j k) := by
  simp only [matmul]
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx j ((ValueIdx.contrEquiv1 dot_S5000x128_S128x128_S5000x128_1_0_0_1_n_n 128 rfl rfl).symm k) = trow j k := funext fun a => Fin.ext (by
    match a with
    | ⟨0, _⟩ => exact lhs_tile_0 _ _
    | ⟨1, _⟩ => exact (lhs_tile_1 _ _).trans hk)
  have er : dot_S5000x128_S128x128_S5000x128_1_0_0_1_n_n.rhsIdx j ((ValueIdx.contrEquiv1 dot_S5000x128_S128x128_S5000x128_1_0_0_1_n_n 128 rfl rfl).symm k) = tcol j k := funext fun a => Fin.ext (by
    match a with
    | ⟨0, _⟩ => exact (rhs_tile_0 _ _).trans hk
    | ⟨1, _⟩ => exact rhs_tile_1 _ _)
  rw [el, er]

/-- What the body stores on a tile, at local row `p` and column `q`: the tile product there, cut off below at zero. -/
theorem pay0_apply (x0 : Vec Ideal S5000x128 .f32) (x1 : Vec Ideal S128x128 .f32) (j : S5000x128.Idx) :
    k0_pay1 (F := Ideal) x0 x1 j = max (∑ k : Fin 128, x0 (trow j k) * x1 (tcol j k)) 0 := by
  unfold k0_pay1
  show max (matmul dot_S5000x128_S128x128_S5000x128_1_0_0_1_n_n none (truncf .bf16 (shapeCast S5000x128 x0 shapeCasts_S5000x128_S5000x128) bitsLt_bf16_f32)
      (truncf .bf16 (shapeCast S128x128 x1 shapeCasts_S128x128_S128x128) bitsLt_bf16_f32) (constant S5000x128 .f32 0x00000000#32) j)
    (Ideal.ofBits .f32 0x00000000#32) = _
  rw [matmul_tile, Ideal.ofBits_zero_f32]
  simp only [ValueIdx.truncf_apply, shapeCast_self]

/-- The second region's body stores the same function of its tile. -/
theorem pay1_apply (x0 : Vec Ideal S5000x128 .f32) (x1 : Vec Ideal S128x128 .f32) (j : S5000x128.Idx) :
    k1_pay1 (F := Ideal) x0 x1 j = max (∑ k : Fin 128, x0 (trow j k) * x1 (tcol j k)) 0 :=
  pay0_apply x0 x1 j

theorem zero_offsets : (![0, 0] : Fin 2 → Nat) = fun _ => 0 := funext fun a => by fin_cases a <;> rfl

section Regions
-- the buffer contents a region is entered with: each region's lemmas hold at any such contents
variable (V : (c : Dev nD) → (b : Ref sig .tc) → Buf (Elt Ideal) ((c : Thread nD τ).loc b))

/-! ## The first region -/

/-- The first region's feature array (the first aggregation) and weight array (the first weights, transposed), as the
    region finds them. -/
abbrev feat0 (c : Dev nD) : FVec Ideal S100000x128 .f32 := V c main_v47
abbrev wts0 (c : Dev nD) : FVec Ideal S128x128 .f32 := V c main_v48

/-- The block index maps of the first region over its 20 points: the feature tile moves with the output tile along the
    rows and both span all columns; the weight matrix is one block; the output's row-block index is the point itself. -/
theorem idx_facts0 : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) = t.val :=
  (by decide +kernel : ∀ t : Fin grid0.N, _)

/-- What point `t` writes back is tile `t` of the layer function of the region's two input arrays. -/
theorem flushed0_eq (c : Dev nD) (t : Fin cfg0.N) :
    (dat0 V c).flushed 2 t = ((cfg0.win 2).blk t).view.read (Elt Ideal) (denseRelu (feat0 V c) (wts0 V c)) := by
  show (cfg0.win 2).cut (grid0.coords t) ((dat0 V c).after 2 t) = _
  rw [after0_2]
  unfold out0_2
  rw [View.canon_unit_zero zero_offsets]
  simp only [View.ld_unit_zero (S := S5000x128) zero_offsets, View.ld_unit_zero (S := S128x128) zero_offsets]
  obtain ⟨e0, e1, e2, e3, e4, e5⟩ := idx_facts0 t
  funext j
  show k0_pay1 (F := Ideal) (iblk0 V c 0 t) (iblk0 V c 1 t) j = denseRelu (feat0 V c) (wts0 V c) (((cfg0.win 2).blk t).view.emb j)
  refine (pay0_apply (iblk0 V c 0 t) (iblk0 V c 1 t) j).trans ?_
  rw [denseRelu_apply]
  refine congrArg (max · 0) (Finset.sum_congr rfl fun k _ => ?_)
  have h0 : ((cfg0.win 0).blk t).view.emb (trow j k) = rowAt (((cfg0.win 2).blk t).view.emb j) k := by
    funext a; apply Fin.ext
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 128 + 1 * k.val = k.val; omega
  have h1 : ((cfg0.win 1).blk t).view.emb (tcol j k) = colAt (((cfg0.win 2).blk t).view.emb j) k := by
    funext a; apply Fin.ext
    match a with
    | ⟨0, _⟩ => show win0_1.index t (0 : Fin 2) * 128 + 1 * k.val = k.val; omega
    | ⟨1, _⟩ => show win0_1.index t (1 : Fin 2) * 128 + 1 * (j 1).val = win0_2.index t (1 : Fin 2) * 128 + 1 * (j 1).val; omega
  show feat0 V c (((cfg0.win 0).blk t).view.emb (trow j k)) * wts0 V c (((cfg0.win 1).blk t).view.emb (tcol j k)) = _
  rw [h0, h1]

/-- An index of the output array is in point `t`'s tile iff each coordinate is in the tile's range on its axis. -/
theorem mem_blk0 (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v49).slice (win0_2.rect t)).set ↔ _
  rw [View.set_slice_whole, Rect.mem_set_unit]
  exact Iff.rfl

/-- Every index of the output array lies in some point's tile: row `r` in tile `r / 5000`. -/
theorem cover0 (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 20 := N_0
  have ht : (i 0).val / 5000 < cfg0.N := by rw [hN]; omega
  obtain ⟨e0, e1, e2, e3, e4, e5⟩ := idx_facts0 ⟨(i 0).val / 5000, ht⟩
  have e5' : win0_2.index ⟨(i 0).val / 5000, ht⟩ (0 : Fin 2) = (i 0).val / 5000 := e5
  refine ⟨⟨(i 0).val / 5000, ht⟩, flush0_2 _, ?_⟩
  rw [mem_blk0]
  intro a
  match a with
  | ⟨0, _⟩ => show win0_2.index ⟨(i 0).val / 5000, ht⟩ (0 : Fin 2) * 5000 ≤ (i 0).val ∧ (i 0).val < win0_2.index ⟨(i 0).val / 5000, ht⟩ (0 : Fin 2) * 5000 + 5000; omega
  | ⟨1, _⟩ => show win0_2.index ⟨(i 0).val / 5000, ht⟩ (1 : Fin 2) * 128 ≤ (i 1).val ∧ (i 1).val < win0_2.index ⟨(i 0).val / 5000, ht⟩ (1 : Fin 2) * 128 + 128; omega

/-- The first region's output array after the region: the layer function of its two input arrays. -/
theorem final0 (c : Dev nD) : (dat0 V c).arrAt 2 cfg0.N = denseRelu (feat0 V c) (wts0 V c) :=
  (dat0 V c).arrAt_eq_of_cover 2 (denseRelu (feat0 V c) (wts0 V c)) (fun t _ => flushed0_eq V c t) cover0

/-! ## The second region -/

/-- The second region's feature array (the second aggregation) and weight array (the second weights, transposed), as the
    region finds them. -/
abbrev feat1 (c : Dev nD) : FVec Ideal S100000x128 .f32 := V c main_v62
abbrev wts1 (c : Dev nD) : FVec Ideal S128x128 .f32 := V c main_v63

/-- The block index maps of the second region over its 20 points, as for the first. -/
theorem idx_facts1 : ∀ t : Fin cfg1.N, win1_0.index t (0 : Fin 2) = win1_2.index t (0 : Fin 2)
    ∧ win1_0.index t (1 : Fin 2) = 0
    ∧ win1_1.index t (0 : Fin 2) = 0
    ∧ win1_1.index t (1 : Fin 2) = 0
    ∧ win1_2.index t (1 : Fin 2) = 0
    ∧ win1_2.index t (0 : Fin 2) = t.val :=
  (by decide +kernel : ∀ t : Fin grid1.N, _)

/-- What point `t` writes back is tile `t` of the layer function of the region's two input arrays. -/
theorem flushed1_eq (c : Dev nD) (t : Fin cfg1.N) :
    (dat1 V c).flushed 2 t = ((cfg1.win 2).blk t).view.read (Elt Ideal) (denseRelu (feat1 V c) (wts1 V c)) := by
  show (cfg1.win 2).cut (grid1.coords t) ((dat1 V c).after 2 t) = _
  rw [after1_2]
  unfold out1_2
  rw [View.canon_unit_zero zero_offsets]
  simp only [View.ld_unit_zero (S := S5000x128) zero_offsets, View.ld_unit_zero (S := S128x128) zero_offsets]
  obtain ⟨e0, e1, e2, e3, e4, e5⟩ := idx_facts1 t
  funext j
  show k1_pay1 (F := Ideal) (iblk1 V c 0 t) (iblk1 V c 1 t) j = denseRelu (feat1 V c) (wts1 V c) (((cfg1.win 2).blk t).view.emb j)
  refine (pay1_apply (iblk1 V c 0 t) (iblk1 V c 1 t) j).trans ?_
  rw [denseRelu_apply]
  refine congrArg (max · 0) (Finset.sum_congr rfl fun k _ => ?_)
  have h0 : ((cfg1.win 0).blk t).view.emb (trow j k) = rowAt (((cfg1.win 2).blk t).view.emb j) k := by
    funext a; apply Fin.ext
    match a with
    | ⟨0, _⟩ => show win1_0.index t (0 : Fin 2) * 5000 + 1 * (j 0).val = win1_2.index t (0 : Fin 2) * 5000 + 1 * (j 0).val; omega
    | ⟨1, _⟩ => show win1_0.index t (1 : Fin 2) * 128 + 1 * k.val = k.val; omega
  have h1 : ((cfg1.win 1).blk t).view.emb (tcol j k) = colAt (((cfg1.win 2).blk t).view.emb j) k := by
    funext a; apply Fin.ext
    match a with
    | ⟨0, _⟩ => show win1_1.index t (0 : Fin 2) * 128 + 1 * k.val = k.val; omega
    | ⟨1, _⟩ => show win1_1.index t (1 : Fin 2) * 128 + 1 * (j 1).val = win1_2.index t (1 : Fin 2) * 128 + 1 * (j 1).val; omega
  show feat1 V c (((cfg1.win 0).blk t).view.emb (trow j k)) * wts1 V c (((cfg1.win 1).blk t).view.emb (tcol j k)) = _
  rw [h0, h1]

/-- An index of the output array is in point `t`'s tile iff each coordinate is in the tile's range on its axis. -/
theorem mem_blk1 (t : Fin cfg1.N) (i : S100000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v64).slice (win1_2.rect t)).set ↔ _
  rw [View.set_slice_whole, Rect.mem_set_unit]
  exact Iff.rfl

/-- Every index of the output array lies in some point's tile: row `r` in tile `r / 5000`. -/
theorem cover1 (i : S100000x128.Idx) :
    ∃ t : Fin cfg1.N, (cfg1.win 2).flush t = true ∧ i ∈ ((cfg1.win 2).blk t).view.set := by
  have hi0 : (i 0).val < 100000 := (i 0).isLt
  have hi1 : (i 1).val < 128 := (i 1).isLt
  have hN : cfg1.N = 20 := N_1
  have ht : (i 0).val / 5000 < cfg1.N := by rw [hN]; omega
  obtain ⟨e0, e1, e2, e3, e4, e5⟩ := idx_facts1 ⟨(i 0).val / 5000, ht⟩
  have e5' : win1_2.index ⟨(i 0).val / 5000, ht⟩ (0 : Fin 2) = (i 0).val / 5000 := e5
  refine ⟨⟨(i 0).val / 5000, ht⟩, flush1_2 _, ?_⟩
  rw [mem_blk1]
  intro a
  match a with
  | ⟨0, _⟩ => show win1_2.index ⟨(i 0).val / 5000, ht⟩ (0 : Fin 2) * 5000 ≤ (i 0).val ∧ (i 0).val < win1_2.index ⟨(i 0).val / 5000, ht⟩ (0 : Fin 2) * 5000 + 5000; omega
  | ⟨1, _⟩ => show win1_2.index ⟨(i 0).val / 5000, ht⟩ (1 : Fin 2) * 128 ≤ (i 1).val ∧ (i 1).val < win1_2.index ⟨(i 0).val / 5000, ht⟩ (1 : Fin 2) * 128 + 128; omega

/-- The second region's output array after the region: the layer function of its two input arrays. -/
theorem final1 (c : Dev nD) : (dat1 V c).arrAt 2 cfg1.N = denseRelu (feat1 V c) (wts1 V c) :=
  (dat1 V c).arrAt_eq_of_cover 2 (denseRelu (feat1 V c) (wts1 V c)) (fun t _ => flushed1_eq V c t) cover1

end Regions

end Cert.KernelIdeal.DenseValue

end
-- ==== Proof.LibTRef.lean ====
/-
  A typed reference's two transports cancel. A module-local function's operation reads each operand by carrying the
  buffer's contents to the value's type and writes its result by carrying it back; the value's type IS the buffer's, so a
  result read by the next operation is the value itself.
-/
import Idealize.ShloMosaic.Lib.StableHlo

namespace Idealize.ShloMosaic.StableHlo.TRef

/-- Contents carried to a buffer's own type and back are themselves. -/
theorem ofBuf_toBuf {sig : RefSig} {T : BufTy} {Val : EltTy → Type} (x : TRef sig T) (v : T.Contents Val) :
    x.ofBuf (x.toBuf v) = v := by
  obtain ⟨r, h, h2, h3⟩ := x
  subst h
  rfl

end Idealize.ShloMosaic.StableHlo.TRef
-- ==== Proof.KernelHost.lean ====
/-
  The host operations around the two kernel regions, read back on the kernel's side.

  Before the first region the program computes, from the edge list alone, each edge's source, destination and weight, and
  from those and the input features the first aggregation; between the regions it aggregates the first region's output over
  the same sources, destinations and weights. These are the very operations the reference applies, so each buffer's contents
  at a region's entry is the reference's own stage of the same arguments, and the aggregation between the regions is the
  reference's aggregation function of whatever the first region left. Nothing here opens an aggregation: the two programs'
  terms are compared operation by operation and agree as written. The one place where they are not written alike is the
  clamp of the degrees at one, a function of its own in the program text, whose operands and result pass through a change of
  type that is the identity; those are removed first (the paired ones by the general lemma of LibTRef.lean, the three at the
  function's boundary by the lemmas below), so that the comparison never has to look inside an operation.
-/
import proofs.«153270_j54949811585248_1_alg».proof.Proof.Gen.KernelIdeal.Frame
import proofs.«153270_j54949811585248_1_alg».proof.Proof.RefDense
import proofs.«153270_j54949811585248_1_alg».proof.Proof.LibTRef
import Idealize.ShloMosaic.Lib.StableHlo.Run

set_option maxRecDepth 16384

noncomputable section

namespace Cert.KernelIdeal.HostValue

open Cert.KernelIdeal Cert.KernelIdeal.Gen Idealize.ShloMosaic Idealize.ShloMosaic.TcCoe Idealize.SL.Sem Idealize.ShloMosaic.StableHlo
open Cert.ReferenceIdeal.RefValue (edgeSum)

variable (m : (ℓ : Loc nD τ sig) → Buf (Elt Ideal) ℓ) (ρ : Dev nD → PrngReg)

/-- The input features, the two weight matrices and the edge list, as launched. -/
abbrev feats (c : Dev nD) : FVec Ideal S100000x128 .f32 := m ((c : Thread nD τ).loc main_arg0)
abbrev wmat1 (c : Dev nD) : FVec Ideal S128x128 .f32 := m ((c : Thread nD τ).loc main_arg1)
abbrev wmat2 (c : Dev nD) : FVec Ideal S128x128 .f32 := m ((c : Thread nD τ).loc main_arg2)
abbrev edgeList (c : Dev nD) : (⟨S2x1600000, .i32⟩ : BufTy).Contents (Elt Ideal) := m ((c : Thread nD τ).loc main_arg3)

/-! ## The clamp's boundary: its operands are read in, and its result written out, unchanged -/

/-- The clamp's lower bound is read in as it stands. -/
theorem clip_in_bound (h : main_cst_3.ty = (⟨S_, .f32⟩ : BufTy)) (hd : main_cst_3.space ≠ .host) (hu : main_cst_3.isScoped = false)
    (v : (⟨S_, .f32⟩ : BufTy).Contents (Elt Ideal)) :
    (TRef.of main_cst_3 h hd hu : TRef sig ⟨S_, .f32⟩).ofBuf v = v := rfl

/-- The clamped vector (the degrees) is read in as it stands. -/
theorem clip_in_deg (h : main_v16.ty = (⟨S100000, .f32⟩ : BufTy)) (hd : main_v16.space ≠ .host) (hu : main_v16.isScoped = false)
    (v : (⟨S100000, .f32⟩ : BufTy).Contents (Elt Ideal)) :
    (TRef.of main_v16 h hd hu : TRef sig ⟨S100000, .f32⟩).ofBuf v = v := rfl

/-- The clamp's result is written out as it stands. -/
theorem clip_out (h : main_v17.ty = (⟨S100000, .f32⟩ : BufTy)) (hd : main_v17.space ≠ .host) (hu : main_v17.isScoped = false)
    (v : (⟨S100000, .f32⟩ : BufTy).Contents (Elt Ideal)) :
    (TRef.of main_v17 h hd hu : TRef sig ⟨S100000, .f32⟩).toBuf v = v := rfl

/-! ## At the first region's entry -/

/-- The edge sources (with the self loops appended) are the reference's. -/
theorem src_eq (c : Dev nD) :
    (W3 m ρ c (Proc.devRef .tc main_v3) : (⟨S1700000, .i32⟩ : BufTy).Contents (Elt Ideal)) = Cert.ReferenceIdeal.Read.val_main_v3 (F := Ideal) (edgeList m c) := by
  dsimp only [W3, W2, W1, hostOps0, hostOps0_1, hostOps0_2]
  after_results_simp <;> rfl

/-- The edge destinations (with the self loops appended) are the reference's. -/
theorem dst_eq (c : Dev nD) :
    (W3 m ρ c (Proc.devRef .tc main_v6) : (⟨S1700000, .i32⟩ : BufTy).Contents (Elt Ideal)) = Cert.ReferenceIdeal.Read.val_main_v6 (F := Ideal) (edgeList m c) := by
  dsimp only [W3, W2, W1, hostOps0, hostOps0_1, hostOps0_2]
  after_results_simp <;> rfl

/-- The edge weights (the product of the two end nodes' inverse square-root degrees) are the reference's. -/
theorem wgt_eq (c : Dev nD) :
    (W3 m ρ c (Proc.devRef .tc main_v34) : (⟨S1700000, .f32⟩ : BufTy).Contents (Elt Ideal)) = Cert.ReferenceIdeal.Read.val_main_v34 (F := Ideal) (edgeList m c) := by
  dsimp only [W3, W2, W1, hostOps0, hostOps0_1, hostOps0_2]
  after_results_simp
  simp only [StableHlo.TRef.ofBuf_toBuf, clip_in_bound, clip_in_deg, clip_out]
  rfl

/-- The first region's feature array is the aggregation of the input features. -/
theorem agg1_eq (c : Dev nD) :
    (W3 m ρ c (Proc.devRef .tc main_v47) : FVec Ideal S100000x128 .f32) = edgeSum (edgeList m c) (feats m c) := by
  dsimp only [W3, W2, W1, hostOps0, hostOps0_1, hostOps0_2]
  after_results_simp
  simp only [StableHlo.TRef.ofBuf_toBuf, clip_in_bound, clip_in_deg, clip_out]
  rfl

/-- The first region's weight array is the first weight matrix transposed. -/
theorem wt1_eq (c : Dev nD) :
    (W3 m ρ c (Proc.devRef .tc main_v48) : FVec Ideal S128x128 .f32) = Cert.ReferenceIdeal.Read.val_main_v48 (F := Ideal) (wmat1 m c) := by
  dsimp only [W3, W2, W1, hostOps0, hostOps0_1, hostOps0_2]
  after_results_simp <;> rfl

/-- The second weight matrix is untouched up to the first region's entry. -/
theorem arg2_entry (c : Dev nD) :
    (W3 m ρ c (Proc.devRef .tc main_arg2) : FVec Ideal S128x128 .f32) = wmat2 m c := by
  dsimp only [W3, W2, W1, hostOps0, hostOps0_1, hostOps0_2]
  after_results_simp <;> rfl

/-! ## At the second region's entry -/

/-- The second region's feature array is the aggregation of what the first region left in its output array. -/
theorem agg2_eq (c : Dev nD) :
    (W5 m ρ c (Proc.devRef .tc main_v62) : FVec Ideal S100000x128 .f32)
      = edgeSum (edgeList m c) (W4 m ρ c (Proc.devRef .tc main_v49)) := by
  dsimp only [W5, hostOps1]
  after_results_simp
  rw [W4_of_ne m ρ c main_v3 (by decide), W4_of_ne m ρ c main_v6 (by decide), W4_of_ne m ρ c main_v34 (by decide),
    src_eq, dst_eq, wgt_eq]
  rfl

/-- The second region's weight array is the second weight matrix transposed. -/
theorem wt2_eq (c : Dev nD) :
    (W5 m ρ c (Proc.devRef .tc main_v63) : FVec Ideal S128x128 .f32) = Cert.ReferenceIdeal.Read.val_main_v64 (F := Ideal) (wmat2 m c) := by
  dsimp only [W5, hostOps1]
  after_results_simp
  rw [W4_of_ne m ρ c main_arg2 (by decide), arg2_entry]
  rfl

end Cert.KernelIdeal.HostValue

end
-- ==== Proof.KernelValue.lean ====
/-
  The kernel program's result array: two dense layers, each over the aggregation of what came before.

  The result buffer ends at what the second region leaves in its output array: the layer function of the region's two input
  arrays, which at the region's entry hold the aggregation of the first region's output and the second weight matrix
  transposed. The first region's output is in turn the layer function of the aggregation of the input features and the first
  weight matrix transposed. Chaining the four facts gives the result as one term of the launch contents, the term the
  reference's result is read to as well.
-/
import proofs.«153270_j54949811585248_1_alg».proof.Proof.KernelDense
import proofs.«153270_j54949811585248_1_alg».proof.Proof.KernelHost

set_option maxRecDepth 16384

noncomputable section

namespace Cert.KernelIdeal.ResultValue

open Cert.KernelIdeal Cert.KernelIdeal.Gen Idealize.ShloMosaic Idealize.ShloMosaic.TcCoe Idealize.SL.Sem
open Cert.Dense Cert.KernelIdeal.DenseValue Cert.KernelIdeal.HostValue
open Cert.ReferenceIdeal.RefValue (edgeSum)

variable (m : (ℓ : Loc nD τ sig) → Buf (Elt Ideal) ℓ) (ρ : Dev nD → PrngReg)

/-- What the result buffer holds at the last segment boundary, as a term of the launch contents. -/
theorem result_eq (c : Dev nD) :
    (W6 m ρ c (Proc.devRef .tc main_v64) : FVec Ideal S100000x128 .f32)
      = denseRelu (edgeSum (edgeList m c) (denseRelu (edgeSum (edgeList m c) (feats m c)) (Cert.ReferenceIdeal.Read.val_main_v48 (F := Ideal) (wmat1 m c))))
          (Cert.ReferenceIdeal.Read.val_main_v64 (F := Ideal) (wmat2 m c)) := by
  have h6 : W6 m ρ c (Proc.devRef .tc main_v64) = (dat1 (V5 m ρ) c).arrAt 2 cfg1.N := W6_arr m ρ c 2
  refine h6.trans ((final1 (V5 m ρ) c).trans ?_)
  have hA1 : feat1 (V5 m ρ) c = edgeSum (edgeList m c) (W4 m ρ c (Proc.devRef .tc main_v49)) := agg2_eq m ρ c
  have hW1 : wts1 (V5 m ρ) c = Cert.ReferenceIdeal.Read.val_main_v64 (F := Ideal) (wmat2 m c) := wt2_eq m ρ c
  rw [hA1, hW1]
  have h4 : W4 m ρ c (Proc.devRef .tc main_v49) = (dat0 (V3 m ρ) c).arrAt 2 cfg0.N := W4_arr m ρ c 2
  rw [h4, final0 (V3 m ρ) c]
  have hA0 : feat0 (V3 m ρ) c = edgeSum (edgeList m c) (feats m c) := agg1_eq m ρ c
  have hW0 : wts0 (V3 m ρ) c = Cert.ReferenceIdeal.Read.val_main_v48 (F := Ideal) (wmat1 m c) := wt1_eq m ρ c
  rw [hA0, hW0]

end Cert.KernelIdeal.ResultValue

end
-- ==== Proof.lean ====
/-
  Two layers of a graph convolution, each a neighbour aggregation followed by a dense layer with a rectifier: a kernel
  program that runs each dense layer as a tiled matrix product on the TensorCore, against a reference that runs it as one host
  contraction.

  Both programs first compute, from the edge list, every edge's source, destination and weight (the product of the two end
  nodes' inverse square-root degrees), and aggregate the input features over the weighted edges; these host operations are
  the same in the two programs. The kernel program then applies the dense layer in 20 tiles of 5000 rows: on each tile the
  product with the transposed weight matrix from a zero accumulator, then the maximum with zero. The reference contracts the
  whole aggregated matrix with the transposed weights and takes the same maximum. Entry by entry both are
  `max (∑ k, A[r, k] · Wt[k, q]) 0` over the extended reals: the sum is over the same 128 positions on each side, the
  operands' narrowing to a shorter float format before the tile product is the identity there, and no rearrangement of the
  sum is needed, so the equality uses nothing about the inputs beyond their being the same. The second layer repeats this on
  the first layer's output, which is equal on the two sides by the first step.

  The three frames: the two kernel programs' are their generated frame certificates; the reference's is its generated run
  with the result dropped. No operation was rewritten by the idealization, so there is nothing to preserve.
-/
import proofs.«153270_j54949811585248_1_alg».proof.Defs
import proofs.«153270_j54949811585248_1_alg».proof.Proof.Gen.Kernel
import proofs.«153270_j54949811585248_1_alg».proof.Proof.Gen.Kernel.Frame
import proofs.«153270_j54949811585248_1_alg».proof.Proof.Gen.KernelIdeal
import proofs.«153270_j54949811585248_1_alg».proof.Proof.Gen.KernelIdeal.Frame
import proofs.«153270_j54949811585248_1_alg».proof.Proof.Gen.ReferenceIdeal
import proofs.«153270_j54949811585248_1_alg».proof.Proof.Gen.Pre_finite_inputs
import proofs.«153270_j54949811585248_1_alg».proof.Proof.RefSide
import proofs.«153270_j54949811585248_1_alg».proof.Proof.RefDense
import proofs.«153270_j54949811585248_1_alg».proof.Proof.KernelRun
import proofs.«153270_j54949811585248_1_alg».proof.Proof.KernelValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernel_ideal : Cert.frame_KernelIdeal := fun m ρ _ => Cert.KernelIdeal.Gen.frame m ρ

theorem frame_reference_ideal : Cert.frame_ReferenceIdeal := fun m ρ _ =>
  (θ_run Cert.ReferenceIdeal.defs _ _).mono (fun _ h c => (h c).2) (Cert.ReferenceIdeal.Value.run (F := Ideal) m ρ)

/-- From memories that agree on the four arguments both programs end with the result array at the same term: two dense
    layers over aggregated neighbour features. -/
theorem algebraic : Cert.algebraic_KernelIdeal_ReferenceIdeal := by
  intro m ρ m' ρ' _ hagree
  refine ⟨fun c => Cert.KernelIdeal.Gen.W6 m ρ c (Proc.devRef .tc Cert.KernelIdeal.main_v64),
    Cert.KernelIdeal.RunValue.run_named (F := Ideal) m ρ, ?_⟩
  refine (θ_run Cert.ReferenceIdeal.defs _ _).mono (fun r h c => ⟨(h c).1.trans ?_, (h c).2⟩)
    (Cert.ReferenceIdeal.Value.run (F := Ideal) m' ρ')
  rw [Cert.ReferenceIdeal.Read.val_main_v66_eq, Cert.ReferenceIdeal.RefValue.result_eq,
    (hagree c).1, (hagree c).2.1, (hagree c).2.2.1, (hagree c).2.2.2]
  exact (Cert.KernelIdeal.ResultValue.result_eq m ρ c).symm

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, algebraic⟩

end Cert.Proof

end
